-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S400000 : Shape := ⟨1, ![400000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x512 .f32) (main_arg1 : IVec S400000 32) (main_arg2 : IVec S400000 32) (main_arg3 : FVec F S512x512 .f32) (main_arg4 : FVec F S512 .f32) (main_arg5 : FVec F S512x1 .f32) (main_arg6 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg5
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg6 main_v13 main_v16
-- ==== Kernel.lean ====
abbrev S50000x512 : Shape := ⟨2, ![50000, 512]⟩
abbrev S400000 : Shape := ⟨1, ![400000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S400000x512 : Shape := ⟨2, ![400000, 512]⟩
abbrev S1x512 : Shape := ⟨2, ![1, 512]⟩
abbrev S2000x512 : Shape := ⟨2, ![2000, 512]⟩
abbrev S1x1 : Shape := ⟨2, ![1, 1]⟩
abbrev S2000x1 : Shape := ⟨2, ![2000, 1]⟩

abbrev nBuf : Space → Nat
  | .hbm => 103
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S400000, .i32⟩
  | .hbm, ⟨2, _⟩ => ⟨S400000, .i32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S_, .f32⟩
  | .hbm, ⟨8, _⟩ => ⟨S400000, .f32⟩
  | .hbm, ⟨9, _⟩ => ⟨S_, .f32⟩
  | .hbm, ⟨10, _⟩ => ⟨S50000, .f32⟩
  | .hbm, ⟨11, _⟩ => ⟨S400000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S400000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x512, .f32⟩
  | .hbm, ⟨30, _⟩ => ⟨S50000x512, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000x512, .f32⟩
  | .hbm, ⟨40, _⟩ => ⟨S_, .f32⟩
  | .hbm, ⟨41, _⟩ => ⟨S50000x512, .f32⟩
  | .hbm, ⟨42, _⟩ => ⟨S400000x1, .i32⟩
  | .hbm, ⟨43, _⟩ => ⟨S50000x512, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x512, .f32⟩
  | .hbm, ⟨49, _⟩ => ⟨S50000x512, .f32⟩
  | .hbm, ⟨50, _⟩ => ⟨S1x512, .f32⟩
  | .hbm, ⟨51, _⟩ => ⟨S50000x512, .f32⟩
  | .hbm, ⟨52, _⟩ => ⟨S_, .f32⟩
  | .hbm, ⟨53, _⟩ => ⟨S400000, .f32⟩
  | .hbm, ⟨54, _⟩ => ⟨S_, .f32⟩
  | .hbm, ⟨55, _⟩ => ⟨S50000, .f32⟩
  | .hbm, ⟨56, _⟩ => ⟨S400000x1, .i32⟩
  | .hbm, ⟨57, _⟩ => ⟨S50000, .f32⟩
  | .hbm, ⟨58, _⟩ => ⟨S_, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S400000x1, .i32⟩
  | .hbm, ⟨65, _⟩ => ⟨S50000, .f32⟩
  | .hbm, ⟨66, _⟩ => ⟨S_, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x512, .f32⟩
  | .hbm, ⟨75, _⟩ => ⟨S50000x512, .f32⟩
  | .hbm, ⟨76, _⟩ => ⟨S_, .i32⟩
  | .hbm, ⟨77, _⟩ => ⟨S400000, .i32⟩
  | .hbm, ⟨78, _⟩ => ⟨S400000, .i1⟩
  | .hbm, ⟨79, _⟩ => ⟨S_, .i32⟩
  | .hbm, ⟨80, _⟩ => ⟨S400000, .i32⟩
  | .hbm, ⟨81, _⟩ => ⟨S400000, .i32⟩
  | .hbm, ⟨82, _⟩ => ⟨S400000, .i32⟩
  | .hbm, ⟨83, _⟩ => ⟨S400000x1, .i32⟩
  | .hbm, ⟨84, _⟩ => ⟨S400000x512, .f32⟩
  | .hbm, ⟨85, _⟩ => ⟨S_, .f32⟩
  | .hbm, ⟨86, _⟩ => ⟨S50000x512, .f32⟩
  | .hbm, ⟨87, _⟩ => ⟨S400000x1, .i32⟩
  | .hbm, ⟨88, _⟩ => ⟨S50000x512, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x512, .f32⟩
  | .hbm, ⟨94, _⟩ => ⟨S50000x512, .f32⟩
  | .hbm, ⟨95, _⟩ => ⟨S1x1, .f32⟩
  | .hbm, ⟨96, _⟩ => ⟨S50000x1, .f32⟩
  | .hbm, ⟨97, _⟩ => ⟨S_, .f32⟩
  | .hbm, ⟨98, _⟩ => ⟨S1, .f32⟩
  | .hbm, ⟨99, _⟩ => ⟨S1x1, .f32⟩
  | .hbm, ⟨100, _⟩ => ⟨S_, .f32⟩
  | .hbm, ⟨101, _⟩ => ⟨S1x1, .f32⟩
  | .hbm, ⟨102, _⟩ => ⟨S1x1, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S512x1, .f32⟩
  | .local _ .vmem, ⟨9, _⟩ => ⟨S1x1, .f32⟩
  | .local _ .vmem, ⟨10, _⟩ => ⟨S2000x1, .f32⟩
  | .local _ .vmem, ⟨11, _⟩ => ⟨S2000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_12 : Ref sig .tc := ⟨.hbm, 66, rfl⟩
abbrev main_call3_v0 : Ref sig .tc := ⟨.hbm, 67, rfl⟩
abbrev main_call3_v1 : Ref sig .tc := ⟨.hbm, 68, rfl⟩
abbrev main_v39 : Ref sig .tc := ⟨.hbm, 69, rfl⟩
abbrev main_cst_13 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_14 : Ref sig .tc := ⟨.hbm, 76, rfl⟩
abbrev main_v45 : Ref sig .tc := ⟨.hbm, 77, rfl⟩
abbrev main_v46 : Ref sig .tc := ⟨.hbm, 78, rfl⟩
abbrev main_c_15 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_16 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_17 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_18 : Ref sig .tc := ⟨.hbm, 97, rfl⟩
abbrev main_v62 : Ref sig .tc := ⟨.hbm, 98, rfl⟩
abbrev main_v63 : Ref sig .tc := ⟨.hbm, 99, rfl⟩
abbrev main_cst_19 : Ref sig .tc := ⟨.hbm, 100, rfl⟩
abbrev main_v64 : Ref sig .tc := ⟨.hbm, 101, rfl⟩
abbrev main_v65 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  shapeCasts_S1_S1x1 : S1.ShapeCasts S1x1
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  reducesTo_S50000x1_S1_d0 : S50000x1.ReducesTo [0] S1
  h_S_ : 0 < S_.numel
  bcast_S1_S1x1_1 : S1.BroadcastsInDim S1x1 (![1] : Fin 1 → Fin S1x1.rank)
  bcast_S_S1x1 : S_.BroadcastsInDim S1x1 (![] : Fin 0 → Fin S1x1.rank)
  scatter_S50000_S400000x1_S400000_n_0_0_1_wf : ScatterDims.WF S50000 S400000x1 S400000 [] [0] [0] 1
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S2000x512_S512x512_S2000x512_1_0_0_1_n_n_wf : DotDims.WF S2000x512 S512x512 S2000x512 [1] [0] [0] [1] [] []
  dot_S2000x512_S512x1_S2000x1_1_0_0_1_n_n_wf : DotDims.WF S2000x512 S512x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S512x1.size a
  hwx1_1 : ∀ i : grid1.Coords, EltTy.bits .f32 = 32 ∨ (Rect.block (s := S512x1) S512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf

abbrev win0_0 : Pipeline.Window sig grid0 :=
  Pipeline.Window.ofSpec (Memref.whole main_v28) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v59) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S2000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S400000 : Shape := ⟨1, ![400000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S400000x512 : Shape := ⟨2, ![400000, 512]⟩
abbrev S1x512 : Shape := ⟨2, ![1, 512]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S400000, .i32⟩
  | .hbm, ⟨2, _⟩ => ⟨S400000, .i32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S_, .f32⟩
  | .hbm, ⟨8, _⟩ => ⟨S400000, .f32⟩
  | .hbm, ⟨9, _⟩ => ⟨S_, .f32⟩
  | .hbm, ⟨10, _⟩ => ⟨S50000, .f32⟩
  | .hbm, ⟨11, _⟩ => ⟨S400000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S400000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x512, .f32⟩
  | .hbm, ⟨30, _⟩ => ⟨S50000x512, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000x512, .f32⟩
  | .hbm, ⟨40, _⟩ => ⟨S_, .f32⟩
  | .hbm, ⟨41, _⟩ => ⟨S50000x512, .f32⟩
  | .hbm, ⟨42, _⟩ => ⟨S400000x1, .i32⟩
  | .hbm, ⟨43, _⟩ => ⟨S50000x512, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x512, .f32⟩
  | .hbm, ⟨49, _⟩ => ⟨S50000x512, .f32⟩
  | .hbm, ⟨50, _⟩ => ⟨S50000x512, .f32⟩
  | .hbm, ⟨51, _⟩ => ⟨S1x512, .f32⟩
  | .hbm, ⟨52, _⟩ => ⟨S50000x512, .f32⟩
  | .hbm, ⟨53, _⟩ => ⟨S50000x512, .f32⟩
  | .hbm, ⟨54, _⟩ => ⟨S_, .f32⟩
  | .hbm, ⟨55, _⟩ => ⟨S50000x512, .f32⟩
  | .hbm, ⟨56, _⟩ => ⟨S50000x512, .f32⟩
  | .hbm, ⟨57, _⟩ => ⟨S_, .f32⟩
  | .hbm, ⟨58, _⟩ => ⟨S400000, .f32⟩
  | .hbm, ⟨59, _⟩ => ⟨S_, .f32⟩
  | .hbm, ⟨60, _⟩ => ⟨S50000, .f32⟩
  | .hbm, ⟨61, _⟩ => ⟨S400000x1, .i32⟩
  | .hbm, ⟨62, _⟩ => ⟨S50000, .f32⟩
  | .hbm, ⟨63, _⟩ => ⟨S_, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S400000x1, .i32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x512, .f32⟩
  | .hbm, ⟨80, _⟩ => ⟨S50000x512, .f32⟩
  | .hbm, ⟨81, _⟩ => ⟨S_, .i32⟩
  | .hbm, ⟨82, _⟩ => ⟨S400000, .i32⟩
  | .hbm, ⟨83, _⟩ => ⟨S400000, .i1⟩
  | .hbm, ⟨84, _⟩ => ⟨S_, .i32⟩
  | .hbm, ⟨85, _⟩ => ⟨S400000, .i32⟩
  | .hbm, ⟨86, _⟩ => ⟨S400000, .i32⟩
  | .hbm, ⟨87, _⟩ => ⟨S400000, .i32⟩
  | .hbm, ⟨88, _⟩ => ⟨S400000x1, .i32⟩
  | .hbm, ⟨89, _⟩ => ⟨S400000x512, .f32⟩
  | .hbm, ⟨90, _⟩ => ⟨S_, .f32⟩
  | .hbm, ⟨91, _⟩ => ⟨S50000x512, .f32⟩
  | .hbm, ⟨92, _⟩ => ⟨S400000x1, .i32⟩
  | .hbm, ⟨93, _⟩ => ⟨S50000x512, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x512, .f32⟩
  | .hbm, ⟨99, _⟩ => ⟨S50000x512, .f32⟩
  | .hbm, ⟨100, _⟩ => ⟨S50000x1, .f32⟩
  | .hbm, ⟨101, _⟩ => ⟨S1x1, .f32⟩
  | .hbm, ⟨102, _⟩ => ⟨S50000x1, .f32⟩
  | .hbm, ⟨103, _⟩ => ⟨S50000x1, .f32⟩
  | .hbm, ⟨104, _⟩ => ⟨S_, .f32⟩
  | .hbm, ⟨105, _⟩ => ⟨S1, .f32⟩
  | .hbm, ⟨106, _⟩ => ⟨S1x1, .f32⟩
  | .hbm, ⟨107, _⟩ => ⟨S_, .f32⟩
  | .hbm, ⟨108, _⟩ => ⟨S1x1, .f32⟩
  | .hbm, ⟨109, _⟩ => ⟨S1x1, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_cst_13 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_14 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_16 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_18 : Ref sig .tc := ⟨.hbm, 104, rfl⟩
abbrev main_v67 : Ref sig .tc := ⟨.hbm, 105, rfl⟩
abbrev main_v68 : Ref sig .tc := ⟨.hbm, 106, rfl⟩
abbrev main_cst_19 : Ref sig .tc := ⟨.hbm, 107, rfl⟩
abbrev main_v69 : Ref sig .tc := ⟨.hbm, 108, rfl⟩
abbrev main_v70 : Ref sig .tc := ⟨.hbm, 109, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S1_d0 : S50000x1.ReducesTo [0] S1
  h_S_ : 0 < S_.numel
  bcast_S_S1x1 : S_.BroadcastsInDim S1x1 (![] : Fin 0 → Fin S1x1.rank)
  scatter_S50000_S400000x1_S400000_n_0_0_1_wf : ScatterDims.WF S50000 S400000x1 S400000 [] [0] [0] 1
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x512_S50000x512_1_0_0_1_n_n_wf : DotDims.WF S50000x512 S512x512 S50000x512 [1] [0] [0] [1] [] []
  dot_S50000x512_S512x1_S50000x1_1_0_0_1_n_n_wf : DotDims.WF S50000x512 S512x1 S50000x1 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x1_S50000x1_1_0_0_1_n_n : DotDims S50000x512 S512x1 S50000x1 where
  lhsContracting := [1]
  rhsContracting := [0]
  lhsNonContracting := [0]
  rhsNonContracting := [1]
  lhsBatch := []
  rhsBatch := []
  wf := dot_S50000x512_S512x1_S50000x1_1_0_0_1_n_n_wf

class Facts : Prop extends Facts₀ where

variable [Facts]
-- ==== Proof.Spec.lean ====
/-
  The two-layer graph convolution, written as functions of arrays.

  One aggregation step `agg x src dst` scales row s of x by deg_out(s)^(-1/2), sums the scaled rows of the sources over
  the edges that end in each destination, and scales row d of the sums by deg_in(d)^(-1/2); the degrees count edge ends
  and are clamped below at 1. A dense step is the matrix product with the weights plus the bias row, entry by entry the
  sum over the 512 contracted coordinates; the first dense step is followed by the maximum with zero. The readout is the
  mean over the 50000 rows of the single output column. The aggregation and the readout are kept as the host operations
  both programs apply, never opened; only the dense steps are stated entry by entry, because that is where the two
  programs differ: one runs them block by block over 25 row blocks, the other as one product.
-/
import proofs.«111108_j88124138979416_1_alg».proof.Proof.Gen.KernelIdeal
import Idealize.ShloMosaic.PureOps.Ideal
import Idealize.ShloMosaic.Lib.ValueIdx

set_option synthInstance.maxSize 4096

open scoped BigOperators

noncomputable section

namespace Cert.Gcn

open Idealize.ShloMosaic Idealize.ShloMosaic.ValueIdx
open Cert.KernelIdeal Cert.KernelIdeal.Facts₀ Cert.KernelIdeal.Facts

section Chains

variable {F : FTy → Type} [FloatOps F]

/-- deg(idx)^(-1/2), one value per node, spread along the 512 features: the count of edge ends at each node (a
    scatter-add of ones), clamped below at 1, raised to the power -1/2. -/
def degNorm (idx : (⟨S400000, .i32⟩ : BufTy).Contents (Elt F)) : (⟨S50000x512, .f32⟩ : BufTy).Contents (Elt F) :=
  broadcastInDim S50000x512 ![0, 1] bcast_S50000x1_S50000x512_0_1 (broadcastInDim S50000x1 ![0] bcast_S50000_S50000x1_0 (Host.powf (maximumf (broadcastInDim S50000 ![] bcast_S_S50000 (id (constant (F := F) S_ .f32 0x3F800000#32))) (Host.scatterAdd scatter_S50000_S400000x1_S400000_n_0_0_1 (broadcastInDim S50000 ![] bcast_S_S50000 (constant (F := F) S_ .f32 0x00000000#32)) (broadcastInDim S400000x1 ![0] bcast_S400000_S400000x1_0 idx) (broadcastInDim S400000 ![] bcast_S_S400000 (constant (F := F) S_ .f32 0x3F800000#32)))) (broadcastInDim S50000 ![] bcast_S_S50000 (constant (F := F) S_ .f32 0xBF000000#32))))

/-- The source indices as the row gather takes them: a negative index counted from the end. -/
def wrapIdx (src : (⟨S400000, .i32⟩ : BufTy).Contents (Elt F)) : (⟨S400000x1, .i32⟩ : BufTy).Contents (Elt F) :=
  broadcastInDim S400000x1 ![0] bcast_S400000_S400000x1_0 (select (cmpi .slt src (broadcastInDim S400000 ![] bcast_S_S400000 (constantI S_ 32 0#32))) (addi src (broadcastInDim S400000 ![] bcast_S_S400000 (constantI S_ 32 50000#32))) src)

/-- One aggregation step: D_in^(-1/2) · A · D_out^(-1/2) · x over the edge list (src, dst). -/
def agg (x : (⟨S50000x512, .f32⟩ : BufTy).Contents (Elt F)) (src dst : (⟨S400000, .i32⟩ : BufTy).Contents (Elt F)) :
    (⟨S50000x512, .f32⟩ : BufTy).Contents (Elt F) :=
  mulf (Host.scatterAdd scatter_S50000x512_S400000x1_S400000x512_1_0_0_1 (broadcastInDim S50000x512 ![] bcast_S_S50000x512 (constant (F := F) S_ .f32 0x00000000#32)) (broadcastInDim S400000x1 ![0] bcast_S400000_S400000x1_0 dst) (Host.gather gather_S50000x512_S400000x1_S400000x512_1_0_n_n_0_1_1512 (mulf x (degNorm src)) (wrapIdx src))) (degNorm dst)

/-- The readout: the sum of the column over the 50000 nodes, divided by 50000. -/
def meanTail (y : (⟨S50000x1, .f32⟩ : BufTy).Contents (Elt F)) : (⟨S1x1, .f32⟩ : BufTy).Contents (Elt F) :=
  Host.divf (broadcastInDim S1x1 ![1] bcast_S1_S1x1_1 (Host.reduceAdd y (constant (F := F) S_ .f32 0x00000000#32) reducesTo_S50000x1_S1_d0 h_S_)) (broadcastInDim S1x1 ![] bcast_S_S1x1 (constant (F := F) S_ .f32 0x47435000#32))

end Chains

/-- The first dense step at an entry: max(Σₖ x(p,k)·w(k,q) + b(0,q), 0). -/
def denseReluAt (x : FVec Ideal S50000x512 .f32) (w : FVec Ideal S512x512 .f32) (b : FVec Ideal S1x512 .f32)
    (p : Fin 50000) (q : Fin 512) : EReal :=
  max ((∑ k : Fin 512, x (ix2 p k) * w (ix2 k q)) + b (ix2 0 q)) (Ideal.ofBits .f32 0x00000000#32)

/-- The first dense step as an array. -/
def denseRelu (x : FVec Ideal S50000x512 .f32) (w : FVec Ideal S512x512 .f32) (b : FVec Ideal S1x512 .f32) :
    FVec Ideal S50000x512 .f32 := fun i => denseReluAt x w b (i 0) (i 1)

/-- The second dense step at an entry: Σₖ x(p,k)·w(k,q) + b(0,q), with a single output column. -/
def denseOutAt (x : FVec Ideal S50000x512 .f32) (w : FVec Ideal S512x1 .f32) (b : FVec Ideal S1x1 .f32)
    (p : Fin 50000) (q : Fin 1) : EReal :=
  (∑ k : Fin 512, x (ix2 p k) * w (ix2 k q)) + b (ix2 0 q)

/-- The second dense step as an array. -/
def denseOut (x : FVec Ideal S50000x512 .f32) (w : FVec Ideal S512x1 .f32) (b : FVec Ideal S1x1 .f32) :
    FVec Ideal S50000x1 .f32 := fun i => denseOutAt x w b (i 0) (i 1)

/-- The whole network at the ideal values: aggregate, dense with the maximum, aggregate, dense, mean. The bias vectors
    enter as one-row matrices. -/
def result (feat : FVec Ideal S50000x512 .f32) (src dst : (⟨S400000, .i32⟩ : BufTy).Contents (Elt Ideal))
    (w1 : FVec Ideal S512x512 .f32) (b1 : FVec Ideal S1x512 .f32) (w2 : FVec Ideal S512x1 .f32) (b2 : FVec Ideal S1x1 .f32) :
    FVec Ideal S1x1 .f32 :=
  meanTail (F := Ideal) (denseOut (agg (F := Ideal) (denseRelu (agg (F := Ideal) feat src dst) w1 b1) src dst) w2 b2)

end Cert.Gcn

end
-- ==== Proof.KernelHost.lean ====
/-
  The idealized kernel's host operations, read back to the argument arrays.

  Between the launch and the first dense step the program forms the aggregated features `agg feat src dst` and lays
  the first bias vector out as a row; between the two dense steps it aggregates the first step's output the same way and
  lays the second bias out as a 1×1 matrix; after the second dense step it takes the mean of the output column. No host
  operation writes an argument array and neither dense step does, so every read of an argument along the way is a read of
  the launch contents. Nothing here depends on what a float is.
-/
import proofs.«111108_j88124138979416_1_alg».proof.Proof.Gen.KernelIdeal.Frame
import proofs.«111108_j88124138979416_1_alg».proof.Proof.Spec
import Idealize.ShloMosaic.Lib.StableHlo.Run

set_option maxRecDepth 16384

noncomputable section

namespace Cert.Gcn.KernelHost

open Cert.KernelIdeal Cert.KernelIdeal.Gen Cert.Gcn
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The arguments up to the first dense step's exit -/

theorem entry0_arg1 (c : Dev nD) :
    W5 m ρ c (Proc.devRef .tc main_arg1) = m ((c.tc : Thread nD τ).loc main_arg1) := by
  dsimp only [W5, W4, W3, W2, W1, hostOps0, hostOps0_1, hostOps0_2, hostOps0_3, hostOps0_4]
  after_results_simp

theorem exit0_arg1 (c : Dev nD) :
    W6 m ρ c (Proc.devRef .tc main_arg1) = m ((c.tc : Thread nD τ).loc main_arg1) :=
  (W6_of_ne m ρ c main_arg1 (by decide)).trans (entry0_arg1 m ρ c)

theorem entry0_arg2 (c : Dev nD) :
    W5 m ρ c (Proc.devRef .tc main_arg2) = m ((c.tc : Thread nD τ).loc main_arg2) := by
  dsimp only [W5, W4, W3, W2, W1, hostOps0, hostOps0_1, hostOps0_2, hostOps0_3, hostOps0_4]
  after_results_simp

theorem exit0_arg2 (c : Dev nD) :
    W6 m ρ c (Proc.devRef .tc main_arg2) = m ((c.tc : Thread nD τ).loc main_arg2) :=
  (W6_of_ne m ρ c main_arg2 (by decide)).trans (entry0_arg2 m ρ c)

theorem entry0_arg3 (c : Dev nD) :
    W5 m ρ c (Proc.devRef .tc main_arg3) = m ((c.tc : Thread nD τ).loc main_arg3) := by
  dsimp only [W5, W4, W3, W2, W1, hostOps0, hostOps0_1, hostOps0_2, hostOps0_3, hostOps0_4]
  after_results_simp

theorem entry0_arg5 (c : Dev nD) :
    W5 m ρ c (Proc.devRef .tc main_arg5) = m ((c.tc : Thread nD τ).loc main_arg5) := by
  dsimp only [W5, W4, W3, W2, W1, hostOps0, hostOps0_1, hostOps0_2, hostOps0_3, hostOps0_4]
  after_results_simp

theorem exit0_arg5 (c : Dev nD) :
    W6 m ρ c (Proc.devRef .tc main_arg5) = m ((c.tc : Thread nD τ).loc main_arg5) :=
  (W6_of_ne m ρ c main_arg5 (by decide)).trans (entry0_arg5 m ρ c)

theorem entry0_arg6 (c : Dev nD) :
    W5 m ρ c (Proc.devRef .tc main_arg6) = m ((c.tc : Thread nD τ).loc main_arg6) := by
  dsimp only [W5, W4, W3, W2, W1, hostOps0, hostOps0_1, hostOps0_2, hostOps0_3, hostOps0_4]
  after_results_simp

theorem exit0_arg6 (c : Dev nD) :
    W6 m ρ c (Proc.devRef .tc main_arg6) = m ((c.tc : Thread nD τ).loc main_arg6) :=
  (W6_of_ne m ρ c main_arg6 (by decide)).trans (entry0_arg6 m ρ c)

/-! ## What the first dense step is entered with -/

set_option maxHeartbeats 4000000 in
/-- Its left operand is the aggregated input features. -/
theorem entry0_x (c : Dev nD) :
    V5 m ρ c main_v28
      = agg (m ((c.tc : Thread nD τ).loc main_arg0)) (m ((c.tc : Thread nD τ).loc main_arg1)) (m ((c.tc : Thread nD τ).loc main_arg2)) := by
  show W5 m ρ c (Proc.devRef .tc main_v28) = _
  dsimp only [W5, W4, W3, W2, W1, hostOps0, hostOps0_1, hostOps0_2, hostOps0_3, hostOps0_4]
  after_results_simp
  unfold agg degNorm wrapIdx
  rfl

/-- Its right operand is the first weight matrix. -/
theorem entry0_w (c : Dev nD) : V5 m ρ c main_arg3 = m ((c.tc : Thread nD τ).loc main_arg3) :=
  entry0_arg3 m ρ c

/-- Its bias operand is the first bias vector as a 1×512 row. -/
theorem entry0_b (c : Dev nD) :
    V5 m ρ c main_v29 = shapeCast S1x512 (m ((c.tc : Thread nD τ).loc main_arg4)) shapeCasts_S512_S1x512 := by
  show W5 m ρ c (Proc.devRef .tc main_v29) = _
  dsimp only [W5, W4, W3, W2, W1, hostOps0, hostOps0_1, hostOps0_2, hostOps0_3, hostOps0_4]
  after_results_simp
  rfl

/-- The first dense step leaves its output array at what its blocks' write-backs fold to. -/
theorem exit0_out (c : Dev nD) :
    W6 m ρ c (Proc.devRef .tc main_v30) = (dat0 (V5 m ρ) c).arrAt 3 cfg0.N :=
  W6_arr m ρ c 3

/-! ## What the second dense step is entered with -/

set_option maxHeartbeats 4000000 in
/-- Its left operand is the aggregation of the first dense step's output. -/
theorem entry1_x (c : Dev nD) :
    V11 m ρ c main_v59
      = agg (W6 m ρ c (Proc.devRef .tc main_v30)) (m ((c.tc : Thread nD τ).loc main_arg1)) (m ((c.tc : Thread nD τ).loc main_arg2)) := by
  show W11 m ρ c (Proc.devRef .tc main_v59) = _
  dsimp only [W11, W10, W9, W8, W7, hostOps1, hostOps1_1, hostOps1_2, hostOps1_3, hostOps1_4]
  after_results_simp
  rw [exit0_arg1 m ρ c, exit0_arg2 m ρ c]
  unfold agg degNorm wrapIdx
  rfl

/-- Its right operand is the second weight matrix. -/
theorem entry1_w (c : Dev nD) : V11 m ρ c main_arg5 = m ((c.tc : Thread nD τ).loc main_arg5) := by
  show W11 m ρ c (Proc.devRef .tc main_arg5) = _
  dsimp only [W11, W10, W9, W8, W7, hostOps1, hostOps1_1, hostOps1_2, hostOps1_3, hostOps1_4]
  after_results_simp
  exact exit0_arg5 m ρ c

/-- Its bias operand is the second bias as a 1×1 matrix. -/
theorem entry1_b (c : Dev nD) :
    V11 m ρ c main_v60 = shapeCast S1x1 (m ((c.tc : Thread nD τ).loc main_arg6)) shapeCasts_S1_S1x1 := by
  show W11 m ρ c (Proc.devRef .tc main_v60) = _
  dsimp only [W11, W10, W9, W8, W7, hostOps1, hostOps1_1, hostOps1_2, hostOps1_3, hostOps1_4]
  after_results_simp
  rw [exit0_arg6 m ρ c]
  rfl

/-- The second dense step leaves its output column at what its blocks' write-backs fold to. -/
theorem exit1_out (c : Dev nD) :
    W12 m ρ c (Proc.devRef .tc main_v61) = (dat1 (V11 m ρ) c).arrAt 3 cfg1.N :=
  W12_arr m ρ c 3

/-! ## The readout -/

/-- The result is the mean of the second dense step's output column. -/
theorem tail_read (c : Dev nD) :
    W13 m ρ c (Proc.devRef .tc main_v65) = meanTail (W12 m ρ c (Proc.devRef .tc main_v61)) := by
  dsimp only [W13, hostOps2]
  after_results
  unfold meanTail
  rfl

end Cert.Gcn.KernelHost

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Region0.lean ====
/-
  The array the first dense region leaves. Each of the 25 grid points stages rows 2000·t … 2000·t + 1999 of the
  50000 × 512 input, the whole 512 × 512 weight matrix and the whole 1 × 512 bias row, computes for its block the matrix
  product plus the bias row followed by the maximum with zero, and writes the block back to rows 2000·t … of the output.
  The blocks tile the output, so the output ends holding, at every entry (p, q),
  max(Σₖ x(p,k)·w(k,q) + b(0,q), 0).
-/
import proofs.«111108_j88124138979416_1_alg».proof.Proof.Gen.KernelIdeal.Frame
import proofs.«111108_j88124138979416_1_alg».proof.Proof.Spec
import proofs.«111108_j88124138979416_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.Gcn.Region0

open Cert.KernelIdeal Cert.KernelIdeal.Gen Idealize.ShloMosaic Idealize.ShloMosaic.ValueIdx
open Idealize.ShloMosaic.TcCoe Idealize.SL.Sem
open Idealize.ShloMosaic.Pipeline (Dat)

/-! ## The block computation at an entry -/

/-- The block's result at entry (p, q): the product's sum over the 512 contracted coordinates, plus the bias row at q,
    then the maximum with zero. The narrowing of the operands and the casts to the same shape do nothing at the ideal
    values; the bias row spread over the 2000 rows reads its one row. -/
theorem pay_apply (x0 : Vec Ideal S2000x512 .f32) (x1 : Vec Ideal S512x512 .f32) (x2 : Vec Ideal S1x512 .f32)
    (p : Fin 2000) (q : Fin 512) :
    k0_pay1 (F := Ideal) x0 x1 x2 (ix2 p q)
      = max ((∑ k : Fin 512, x0 (ix2 p k) * x1 (ix2 k q)) + x2 (ix2 0 q)) (Ideal.ofBits .f32 0x00000000#32) := by
  unfold k0_pay1
  rw [maximumf_apply, addf_apply, broadcast_apply, shapeCast_self, shapeCast_self, broadcastTo_1b_ab_apply,
    PlainMatmul.matmul_zero_apply dot_S2000x512_S512x512_S2000x512_1_0_0_1_n_n
      dot_S2000x512_S512x512_S2000x512_1_0_0_1_n_n_wf rfl]
  rfl

/-! ## The index maps -/

/-- The zero offsets of a whole-block access, however the zeros are spelt. -/
theorem zero_offsets : (![0, 0] : Fin 2 → Nat) = fun _ => 0 := funext fun a => by fin_cases a <;> rfl

/-- The index maps, decided over the 25 grid points: the input's row block and the output's row block are both block t
    along the rows and block 0 along the columns; the weights and the bias row are the one block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t is row 2000·t + p of the array. -/
def row (t : Fin cfg0.N) (p : Fin 2000) : Fin 50000 :=
  ⟨t.val * 2000 + p.val, by have ht : t.val < 25 := t.isLt; have hp := p.isLt; omega⟩

variable (V : (c : Dev nD) → (b : Ref sig .tc) → Buf (Elt Ideal) ((c : Thread nD τ).loc b))

/-! ## The staged blocks, entry by entry -/

/-- The input's block at point t holds rows 2000·t … of the input array. -/
theorem input_entry (c : Dev nD) (t : Fin cfg0.N) (p : Fin 2000) (k : Fin 512) :
    iblk0 V c 0 t (ix2 p k) = V c main_v28 (ix2 (row t p) k) := by
  obtain ⟨e00, e01, -⟩ := index_facts t
  show V c main_v28 (((cfg0.win 0).blk t).view.emb (ix2 p k)) = V c main_v28 (ix2 (row t p) k)
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 512 + 1 * k.val = k.val; omega

/-- The weights' block at every point is the whole weight matrix. -/
theorem weight_entry (c : Dev nD) (t : Fin cfg0.N) (k q : Fin 512) :
    iblk0 V c 1 t (ix2 k q) = V c main_arg3 (ix2 k q) := by
  obtain ⟨-, -, e10, e11, -⟩ := index_facts t
  show V c main_arg3 (((cfg0.win 1).blk t).view.emb (ix2 k q)) = V c main_arg3 (ix2 k q)
  refine congrArg _ (funext fun a => Fin.ext ?_)
  match a with
  | ⟨0, _⟩ => show win0_1.index t (0 : Fin 2) * 512 + 1 * k.val = k.val; omega
  | ⟨1, _⟩ => show win0_1.index t (1 : Fin 2) * 512 + 1 * q.val = q.val; omega

/-- The bias row's block at every point is the whole bias row. -/
theorem bias_entry (c : Dev nD) (t : Fin cfg0.N) (q : Fin 512) :
    iblk0 V c 2 t (ix2 (0 : Fin 1) q) = V c main_v29 (ix2 (0 : Fin 1) q) := by
  obtain ⟨-, -, -, -, e20, e21, -⟩ := index_facts t
  show V c main_v29 (((cfg0.win 2).blk t).view.emb (ix2 (0 : Fin 1) q)) = V c main_v29 (ix2 (0 : Fin 1) q)
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 512 + 1 * q.val = q.val; omega

/-- Entry (p, q) of the output's block at point t sits at entry (2000·t + p, q) of the output array. -/
theorem output_index (t : Fin cfg0.N) (p : Fin 2000) (q : Fin 512) :
    ((cfg0.win 3).blk t).view.emb (ix2 p q) = ix2 (row t p) q := by
  obtain ⟨-, -, -, -, -, -, e30, e31⟩ := index_facts t
  refine funext fun a => Fin.ext ?_
  match a with
  | ⟨0, _⟩ => show win0_3.index t (0 : Fin 2) * 2000 + 1 * p.val = t.val * 2000 + p.val; omega
  | ⟨1, _⟩ => show win0_3.index t (1 : Fin 2) * 512 + 1 * q.val = q.val; omega

/-! ## What a point writes back -/

/-- Point t writes back block t of the dense step's array. -/
theorem flushed_eq (c : Dev nD) (t : Fin cfg0.N) :
    (dat0 (F := Ideal) V c).flushed 3 t
      = ((cfg0.win 3).blk t).view.read (Elt Ideal) (denseRelu (V c main_v28) (V c main_arg3) (V c main_v29)) := by
  show (cfg0.win 3).cut (grid0.coords t) ((dat0 (F := Ideal) V c).after 3 t) = _
  rw [after0_3]
  unfold out0_3
  rw [View.canon_unit_zero zero_offsets]
  simp only [View.ld_unit_zero (S := S2000x512) zero_offsets, View.ld_unit_zero (S := S512x512) zero_offsets,
    View.ld_unit_zero (S := S1x512) zero_offsets]
  funext j
  obtain ⟨p, q, rfl⟩ : ∃ (p : Fin 2000) (q : Fin 512), j = ix2 p q := ⟨j 0, j 1, eq_ix2 j⟩
  show k0_pay1 (iblk0 V c 0 t) (iblk0 V c 1 t) (iblk0 V c 2 t) (ix2 p q)
    = denseRelu (V c main_v28) (V c main_arg3) (V c main_v29) (((cfg0.win 3).blk t).view.emb (ix2 p q))
  rw [output_index, pay_apply, bias_entry]
  show _ = denseReluAt (V c main_v28) (V c main_arg3) (V c main_v29) (row t p) q
  unfold denseReluAt
  refine congrArg (fun s => max (s + _) _) (Finset.sum_congr rfl fun k _ => ?_)
  rw [input_entry, weight_entry]

/-! ## The blocks tile the output -/

/-- An entry of the array is in point t's block iff each coordinate is in the block's range on its axis. -/
theorem mem_blk (t : Fin cfg0.N) (i : S50000x512.Idx) :
    i ∈ ((cfg0.win 3).blk t).view.set ↔ ∀ a : Fin 2, win0_3.index t a * S2000x512.size a ≤ (i a).val
      ∧ (i a).val < win0_3.index t a * S2000x512.size a + S2000x512.size a := by
  show i ∈ ((View.whole main_v30).slice (win0_3.rect t)).set ↔ _
  rw [View.set_slice_whole, Rect.mem_set_unit]
  exact Iff.rfl

/-- Every entry is in some point's block: row r is in the block of point r / 2000, and every point writes back. -/
theorem covered (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  have hlt : (i 0).val / 2000 < 25 := by omega
  obtain ⟨t, ht⟩ : ∃ t : Fin cfg0.N, t.val = (i 0).val / 2000 := ⟨⟨(i 0).val / 2000, hlt⟩, rfl⟩
  obtain ⟨-, -, -, -, -, -, e30, e31⟩ := index_facts t
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 512 ≤ (i 1).val ∧ (i 1).val < win0_3.index t (1 : Fin 2) * 512 + 512
    omega

/-! ## The array the region leaves -/

/-- After the 25 points the output array is the first dense step of the region's three input arrays. -/
theorem region0_array (c : Dev nD) :
    (dat0 (F := Ideal) V c).arrAt 3 cfg0.N = Cert.Gcn.denseRelu (V c main_v28) (V c main_arg3) (V c main_v29) :=
  (dat0 (F := Ideal) V c).arrAt_eq_of_cover 3 _ (fun t _ => flushed_eq V c t) covered

end Cert.Gcn.Region0

end
-- ==== Proof.Region1.lean ====
/-
  The array the second dense region leaves. Each of the 25 grid points stages rows 2000·t … 2000·t + 1999 of the
  50000 × 512 input, the whole 512 × 1 weight column and the 1 × 1 bias, computes for its block the matrix product plus
  the bias, and writes the 2000 × 1 block back to rows 2000·t … of the output column. The blocks tile the output, so the
  output ends holding, at every entry (p, q) of its single column, Σₖ x(p,k)·w(k,q) + b(0,q).
-/
import proofs.«111108_j88124138979416_1_alg».proof.Proof.Gen.KernelIdeal.Frame
import proofs.«111108_j88124138979416_1_alg».proof.Proof.Spec
import proofs.«111108_j88124138979416_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.Gcn.Region1

open Cert.KernelIdeal Cert.KernelIdeal.Gen Idealize.ShloMosaic Idealize.ShloMosaic.ValueIdx
open Idealize.ShloMosaic.TcCoe Idealize.SL.Sem
open Idealize.ShloMosaic.Pipeline (Dat)

/-! ## The block computation at an entry -/

/-- The block's result at entry (p, q): the product's sum over the 512 contracted coordinates, plus the bias. The
    narrowing of the operands and the casts to the same shape do nothing at the ideal values; the 1 × 1 bias spread over
    the 2000 rows reads its one entry. -/
theorem pay_apply (x0 : Vec Ideal S2000x512 .f32) (x1 : Vec Ideal S512x1 .f32) (x2 : Vec Ideal S1x1 .f32)
    (p : Fin 2000) (q : Fin 1) :
    k1_pay1 (F := Ideal) x0 x1 x2 (ix2 p q) = (∑ k : Fin 512, x0 (ix2 p k) * x1 (ix2 k q)) + x2 (ix2 0 q) := by
  unfold k1_pay1
  rw [addf_apply, shapeCast_self, shapeCast_self, broadcastTo_1b_ab_apply,
    PlainMatmul.matmul_zero_apply dot_S2000x512_S512x1_S2000x1_1_0_0_1_n_n
      dot_S2000x512_S512x1_S2000x1_1_0_0_1_n_n_wf rfl]
  rfl

/-! ## The index maps -/

/-- The zero offsets of a whole-block access, however the zeros are spelt. -/
theorem zero_offsets : (![0, 0] : Fin 2 → Nat) = fun _ => 0 := funext fun a => by fin_cases a <;> rfl

/-- The index maps, decided over the 25 grid points: the input's row block and the output's row block are both block t
    along the rows and block 0 along the columns; the weights and the bias are the one block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t is row 2000·t + p of the array. -/
def row (t : Fin cfg1.N) (p : Fin 2000) : Fin 50000 :=
  ⟨t.val * 2000 + p.val, by have ht : t.val < 25 := t.isLt; have hp := p.isLt; omega⟩

variable (V : (c : Dev nD) → (b : Ref sig .tc) → Buf (Elt Ideal) ((c : Thread nD τ).loc b))

/-! ## The staged blocks, entry by entry -/

/-- The input's block at point t holds rows 2000·t … of the input array. -/
theorem input_entry (c : Dev nD) (t : Fin cfg1.N) (p : Fin 2000) (k : Fin 512) :
    iblk1 V c 0 t (ix2 p k) = V c main_v59 (ix2 (row t p) k) := by
  obtain ⟨e00, e01, -⟩ := index_facts t
  show V c main_v59 (((cfg1.win 0).blk t).view.emb (ix2 p k)) = V c main_v59 (ix2 (row t p) k)
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 512 + 1 * k.val = k.val; omega

/-- The weights' block at every point is the whole weight column. -/
theorem weight_entry (c : Dev nD) (t : Fin cfg1.N) (k : Fin 512) (q : Fin 1) :
    iblk1 V c 1 t (ix2 k q) = V c main_arg5 (ix2 k q) := by
  obtain ⟨-, -, e10, e11, -⟩ := index_facts t
  show V c main_arg5 (((cfg1.win 1).blk t).view.emb (ix2 k q)) = V c main_arg5 (ix2 k q)
  refine congrArg _ (funext fun a => Fin.ext ?_)
  match a with
  | ⟨0, _⟩ => show win1_1.index t (0 : Fin 2) * 512 + 1 * k.val = k.val; omega
  | ⟨1, _⟩ => show win1_1.index t (1 : Fin 2) * 1 + 1 * q.val = q.val; omega

/-- The bias' block at every point is the whole 1 × 1 bias. -/
theorem bias_entry (c : Dev nD) (t : Fin cfg1.N) (q : Fin 1) :
    iblk1 V c 2 t (ix2 (0 : Fin 1) q) = V c main_v60 (ix2 (0 : Fin 1) q) := by
  obtain ⟨-, -, -, -, e20, e21, -⟩ := index_facts t
  show V c main_v60 (((cfg1.win 2).blk t).view.emb (ix2 (0 : Fin 1) q)) = V c main_v60 (ix2 (0 : Fin 1) q)
  refine congrArg _ (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 1 + 1 * q.val = q.val; omega

/-- Entry (p, q) of the output's block at point t sits at entry (2000·t + p, q) of the output array. -/
theorem output_index (t : Fin cfg1.N) (p : Fin 2000) (q : Fin 1) :
    ((cfg1.win 3).blk t).view.emb (ix2 p q) = ix2 (row t p) q := by
  obtain ⟨-, -, -, -, -, -, e30, e31⟩ := index_facts t
  refine funext fun a => Fin.ext ?_
  match a with
  | ⟨0, _⟩ => show win1_3.index t (0 : Fin 2) * 2000 + 1 * p.val = t.val * 2000 + p.val; omega
  | ⟨1, _⟩ => show win1_3.index t (1 : Fin 2) * 1 + 1 * q.val = q.val; omega

/-! ## What a point writes back -/

/-- Point t writes back block t of the dense step's array. -/
theorem flushed_eq (c : Dev nD) (t : Fin cfg1.N) :
    (dat1 (F := Ideal) V c).flushed 3 t
      = ((cfg1.win 3).blk t).view.read (Elt Ideal) (denseOut (V c main_v59) (V c main_arg5) (V c main_v60)) := by
  show (cfg1.win 3).cut (grid1.coords t) ((dat1 (F := Ideal) V c).after 3 t) = _
  rw [after1_3]
  unfold out1_3
  rw [View.canon_unit_zero zero_offsets]
  simp only [View.ld_unit_zero (S := S2000x512) zero_offsets, View.ld_unit_zero (S := S512x1) zero_offsets,
    View.ld_unit_zero (S := S1x1) zero_offsets]
  funext j
  obtain ⟨p, q, rfl⟩ : ∃ (p : Fin 2000) (q : Fin 1), j = ix2 p q := ⟨j 0, j 1, eq_ix2 j⟩
  show k1_pay1 (iblk1 V c 0 t) (iblk1 V c 1 t) (iblk1 V c 2 t) (ix2 p q)
    = denseOut (V c main_v59) (V c main_arg5) (V c main_v60) (((cfg1.win 3).blk t).view.emb (ix2 p q))
  rw [output_index, pay_apply, bias_entry]
  show _ = denseOutAt (V c main_v59) (V c main_arg5) (V c main_v60) (row t p) q
  unfold denseOutAt
  refine congrArg (fun s => s + _) (Finset.sum_congr rfl fun k _ => ?_)
  rw [input_entry, weight_entry]

/-! ## The blocks tile the output -/

/-- An entry of the array is in point t's block iff each coordinate is in the block's range on its axis. -/
theorem mem_blk (t : Fin cfg1.N) (i : S50000x1.Idx) :
    i ∈ ((cfg1.win 3).blk t).view.set ↔ ∀ a : Fin 2, win1_3.index t a * S2000x1.size a ≤ (i a).val
      ∧ (i a).val < win1_3.index t a * S2000x1.size a + S2000x1.size a := by
  show i ∈ ((View.whole main_v61).slice (win1_3.rect t)).set ↔ _
  rw [View.set_slice_whole, Rect.mem_set_unit]
  exact Iff.rfl

/-- Every entry is in some point's block: row r is in the block of point r / 2000, and every point writes back. -/
theorem covered (i : S50000x1.Idx) :
    ∃ t : Fin cfg1.N, (cfg1.win 3).flush t = true ∧ i ∈ ((cfg1.win 3).blk t).view.set := by
  have hi0 : (i 0).val < 50000 := (i 0).isLt
  have hi1 : (i 1).val < 1 := (i 1).isLt
  have hlt : (i 0).val / 2000 < 25 := by omega
  obtain ⟨t, ht⟩ : ∃ t : Fin cfg1.N, t.val = (i 0).val / 2000 := ⟨⟨(i 0).val / 2000, hlt⟩, rfl⟩
  obtain ⟨-, -, -, -, -, -, e30, e31⟩ := index_facts t
  refine ⟨t, flush1_3 t, ?_⟩
  rw [mem_blk]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 1 ≤ (i 1).val ∧ (i 1).val < win1_3.index t (1 : Fin 2) * 1 + 1
    omega

/-! ## The array the region leaves -/

/-- After the 25 points the output column is the second dense step of the region's three input arrays. -/
theorem region1_array (c : Dev nD) :
    (dat1 (F := Ideal) V c).arrAt 3 cfg1.N = Cert.Gcn.denseOut (V c main_v59) (V c main_arg5) (V c main_v60) :=
  (dat1 (F := Ideal) V c).arrAt_eq_of_cover 3 _ (fun t _ => flushed_eq V c t) covered

end Cert.Gcn.Region1

end
-- ==== Proof.KernelValue.lean ====
/-
  The idealized kernel's result, as the specification of the argument arrays.

  The readout is applied to the second dense step's output column; that column is the dense step of the aggregated
  output of the first dense step, which is the dense step with the maximum of the aggregated input features. Each array
  a dense step leaves is its 25 row blocks, every block the entries of the whole-array function; each aggregation and the
  readout are the host operations as the program runs them.
-/
import proofs.«111108_j88124138979416_1_alg».proof.Proof.KernelHost
import proofs.«111108_j88124138979416_1_alg».proof.Proof.Region0
import proofs.«111108_j88124138979416_1_alg».proof.Proof.Region1

set_option maxRecDepth 16384

noncomputable section

namespace Cert.Gcn.KernelValue

open Idealize.ShloMosaic Idealize.ShloMosaic.TcCoe Idealize.SL.Sem
open Cert.KernelIdeal Cert.KernelIdeal.Gen Cert.Gcn Cert.Gcn.KernelHost

variable (m : (ℓ : Loc nD τ sig) → Buf (Elt Ideal) ℓ) (ρ : Dev nD → PrngReg)

/-- The contents of the result buffer at the last boundary: mean ∘ dense ∘ agg ∘ (max 0 ∘ dense) ∘ agg of the arguments. -/
theorem kernel_value (c : Dev nD) :
    W13 (F := Ideal) m ρ c (Proc.devRef .tc main_v65)
      = Cert.Gcn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (shapeCast S1x512 (m ((c.tc : Thread Cert.KernelIdeal.nD Cert.KernelIdeal.τ).loc Cert.KernelIdeal.main_arg4)) shapeCasts_S512_S1x512) (m ((c.tc : Thread Cert.KernelIdeal.nD Cert.KernelIdeal.τ).loc Cert.KernelIdeal.main_arg5))
          (shapeCast S1x1 (m ((c.tc : Thread Cert.KernelIdeal.nD Cert.KernelIdeal.τ).loc Cert.KernelIdeal.main_arg6)) shapeCasts_S1_S1x1) := by
  rw [tail_read, exit1_out, Cert.Gcn.Region1.region1_array (V11 m ρ) c, entry1_x, entry1_w, entry1_b, exit0_out,
    Cert.Gcn.Region0.region0_array (V5 m ρ) c, entry0_x, entry0_w, entry0_b]
  rfl

end Cert.Gcn.KernelValue

end
-- ==== Proof.RefValue.lean ====
/-
  The reference program's result is the two-layer graph convolution of the specification.

  The reference computes, from its seven argument arrays, the composition: aggregate, dense step with the maximum with
  zero, aggregate, dense step, mean over the rows. Its aggregation and its mean are the very host operations the
  specification names, applied to the same operands; its two dense steps are a matrix product over the 512 contracted
  coordinates plus the bias vector spread along the rows (and, for the first, the maximum with the zero array). Entry by
  entry a dense step is the sum over k of x(p,k)·w(k,q) plus the bias at q, which is the one-row bias matrix read at (0,q).
  So the result is the specification's network with the bias vectors entering as one-row matrices.
-/
import proofs.«111108_j88124138979416_1_alg».proof.Proof.Gen.ReferenceIdeal.Run
import proofs.«111108_j88124138979416_1_alg».proof.Proof.Gen.ReferenceIdeal.Read
import proofs.«111108_j88124138979416_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384
set_option synthInstance.maxSize 4096

open scoped BigOperators

noncomputable section

namespace Cert.Gcn.RefValue

open Idealize.ShloMosaic Idealize.ShloMosaic.ValueIdx Idealize.ShloMosaic.TcCoe Idealize.SL.Sem Idealize.ShloMosaic.StableHlo

section Defs
open Cert.ReferenceIdeal Cert.ReferenceIdeal.Gen

/-- The reference's first dense stage: the product with the weights, plus the bias vector spread along the rows, then
    the maximum with the zero array. -/
def refDense0 (x : FVec Ideal S50000x512 .f32) (w : FVec Ideal S512x512 .f32) (b : FVec Ideal S512 .f32) :
    FVec Ideal S50000x512 .f32 :=
  maximumf (addf (Host.dotGeneral dot_S50000x512_S512x512_S50000x512_1_0_0_1_n_n none x w) (broadcastInDim S50000x512 ![0, 1] bcast_S1x512_S50000x512_0_1 (broadcastInDim S1x512 ![1] bcast_S512_S1x512_1 b))) (broadcastInDim S50000x512 ![] bcast_S_S50000x512 (constant S_ .f32 0x00000000#32))

/-- The reference's second dense stage: the product with the single weight column, plus the one-entry bias spread along
    the rows. -/
def refDense1 (x : FVec Ideal S50000x512 .f32) (w : FVec Ideal S512x1 .f32) (b : FVec Ideal S1 .f32) :
    FVec Ideal S50000x1 .f32 :=
  addf (Host.dotGeneral dot_S50000x512_S512x1_S50000x1_1_0_0_1_n_n none x w) (broadcastInDim S50000x1 ![0, 1] bcast_S1x1_S50000x1_0_1 (broadcastInDim S1x1 ![1] bcast_S1_S1x1_1 b))

end Defs

section Entries
open Cert.ReferenceIdeal Cert.ReferenceIdeal.Gen

/-- The first product at entry (p, q): the sum over the 512 contracted coordinates. -/
theorem dot0_apply (x : FVec Ideal S50000x512 .f32) (w : FVec Ideal S512x512 .f32) (p : Fin 50000) (q : Fin 512) :
    Host.dotGeneral dot_S50000x512_S512x512_S50000x512_1_0_0_1_n_n none x w (ix2 p q)
      = ∑ k : Fin 512, x (ix2 p k) * w (ix2 k q) := by
  simp only [Host.dotGeneral]
  rw [Ideal.dotGeneral_apply, ← Equiv.sum_comp (ValueIdx.contrEquiv1 dot_S50000x512_S512x512_S50000x512_1_0_0_1_n_n 512 rfl rfl).symm]
  refine Finset.sum_congr rfl fun k _ => ?_
  have hk := ValueIdx.contrEquiv1_symm_val dot_S50000x512_S512x512_S50000x512_1_0_0_1_n_n 512 rfl rfl k
  have el : dot_S50000x512_S512x512_S50000x512_1_0_0_1_n_n.lhsIdx (ix2 p q) ((ValueIdx.contrEquiv1 dot_S50000x512_S512x512_S50000x512_1_0_0_1_n_n 512 rfl rfl).symm k) = ix2 p k := funext fun a => Fin.ext (by
    match a with
    | ⟨0, _⟩ => exact Cert.ReferenceIdeal.Read.lhs_main_v29_0 _ _
    | ⟨1, _⟩ => exact (Cert.ReferenceIdeal.Read.lhs_main_v29_1 _ _).trans hk)
  have er : dot_S50000x512_S512x512_S50000x512_1_0_0_1_n_n.rhsIdx (ix2 p q) ((ValueIdx.contrEquiv1 dot_S50000x512_S512x512_S50000x512_1_0_0_1_n_n 512 rfl rfl).symm k) = ix2 k q := funext fun a => Fin.ext (by
    match a with
    | ⟨0, _⟩ => exact (Cert.ReferenceIdeal.Read.rhs_main_v29_0 _ _).trans hk
    | ⟨1, _⟩ => exact Cert.ReferenceIdeal.Read.rhs_main_v29_1 _ _)
  rw [el, er]

/-- The second product at entry (p, q), q the single output column. -/
theorem dot1_apply (x : FVec Ideal S50000x512 .f32) (w : FVec Ideal S512x1 .f32) (p : Fin 50000) (q : Fin 1) :
    Host.dotGeneral dot_S50000x512_S512x1_S50000x1_1_0_0_1_n_n none x w (ix2 p q)
      = ∑ k : Fin 512, x (ix2 p k) * w (ix2 k q) := by
  simp only [Host.dotGeneral]
  rw [Ideal.dotGeneral_apply, ← Equiv.sum_comp (ValueIdx.contrEquiv1 dot_S50000x512_S512x1_S50000x1_1_0_0_1_n_n 512 rfl rfl).symm]
  refine Finset.sum_congr rfl fun k _ => ?_
  have hk := ValueIdx.contrEquiv1_symm_val dot_S50000x512_S512x1_S50000x1_1_0_0_1_n_n 512 rfl rfl k
  have el : dot_S50000x512_S512x1_S50000x1_1_0_0_1_n_n.lhsIdx (ix2 p q) ((ValueIdx.contrEquiv1 dot_S50000x512_S512x1_S50000x1_1_0_0_1_n_n 512 rfl rfl).symm k) = ix2 p k := funext fun a => Fin.ext (by
    match a with
    | ⟨0, _⟩ => exact Cert.ReferenceIdeal.Read.lhs_main_v63_0 _ _
    | ⟨1, _⟩ => exact (Cert.ReferenceIdeal.Read.lhs_main_v63_1 _ _).trans hk)
  have er : dot_S50000x512_S512x1_S50000x1_1_0_0_1_n_n.rhsIdx (ix2 p q) ((ValueIdx.contrEquiv1 dot_S50000x512_S512x1_S50000x1_1_0_0_1_n_n 512 rfl rfl).symm k) = ix2 k q := funext fun a => Fin.ext (by
    match a with
    | ⟨0, _⟩ => exact (Cert.ReferenceIdeal.Read.rhs_main_v63_0 _ _).trans hk
    | ⟨1, _⟩ => exact Cert.ReferenceIdeal.Read.rhs_main_v63_1 _ _)
  rw [el, er]

/-- The bias vector spread over the rows reads, at (p, q), the vector's q-th entry: the one-row matrix at (0, q). -/
theorem bias0_apply (b : FVec Ideal S512 .f32) (h : S512.ShapeCasts S1x512) (p : Fin 50000) (q : Fin 512) :
    broadcastInDim S50000x512 ![0, 1] bcast_S1x512_S50000x512_0_1 (broadcastInDim S1x512 ![1] bcast_S512_S1x512_1 b) (ix2 p q)
      = shapeCast S1x512 b h (ix2 0 q) := by
  rw [broadcastInDim_apply _ bcast_S1x512_S50000x512_0_1 _ (ix2 p q) (ix2 (0 : Fin 1) q) (fun a => match a with
      | ⟨0, _⟩ => by show 0 = if (1 : Nat) = 1 then 0 else p.val; rw [if_pos rfl]
      | ⟨1, _⟩ => by show q.val = if (512 : Nat) = 1 then 0 else q.val; rw [if_neg (by decide)]),
    broadcastInDim_apply _ bcast_S512_S1x512_1 b (ix2 (0 : Fin 1) q) (ix1 q) (fun a => match a with
      | ⟨0, _⟩ => by show q.val = if (512 : Nat) = 1 then 0 else q.val; rw [if_neg (by decide)]),
    shapeCast_a_1a_apply]

/-- The one-entry bias spread over the rows reads, at (p, q), its entry: the one-by-one matrix at (0, q). -/
theorem bias1_apply (b : FVec Ideal S1 .f32) (h : S1.ShapeCasts S1x1) (p : Fin 50000) (q : Fin 1) :
    broadcastInDim S50000x1 ![0, 1] bcast_S1x1_S50000x1_0_1 (broadcastInDim S1x1 ![1] bcast_S1_S1x1_1 b) (ix2 p q)
      = shapeCast S1x1 b h (ix2 0 q) := by
  have hq : q = 0 := Subsingleton.elim _ _
  subst hq
  rw [broadcastInDim_apply _ bcast_S1x1_S50000x1_0_1 _ (ix2 p (0 : Fin 1)) (ix2 (0 : Fin 1) (0 : Fin 1)) (fun a => match a with
      | ⟨0, _⟩ => by show 0 = if (1 : Nat) = 1 then 0 else p.val; rw [if_pos rfl]
      | ⟨1, _⟩ => by show 0 = if (1 : Nat) = 1 then 0 else 0; rw [if_pos rfl]),
    broadcastInDim_apply _ bcast_S1_S1x1_1 b (ix2 (0 : Fin 1) (0 : Fin 1)) (ix1 (0 : Fin 1)) (fun a => match a with
      | ⟨0, _⟩ => by show 0 = if (1 : Nat) = 1 then 0 else 0; rw [if_pos rfl]),
    shapeCast_a_1a_apply]

/-- The first dense stage of the reference is the entrywise specification. -/
theorem refDense0_eq (x : FVec Ideal S50000x512 .f32) (w : FVec Ideal S512x512 .f32) (b : FVec Ideal S512 .f32)
    (h : S512.ShapeCasts S1x512) :
    refDense0 x w b = Cert.Gcn.denseRelu x w (shapeCast S1x512 b h) := by
  funext i
  obtain ⟨p, q, rfl⟩ : ∃ (p : Fin 50000) (q : Fin 512), i = ix2 p q := ⟨i 0, i 1, eq_ix2 i⟩
  unfold refDense0 Cert.Gcn.denseRelu Cert.Gcn.denseReluAt
  rw [maximumf_apply, addf_apply, dot0_apply, bias0_apply b h]
  rfl

/-- The second dense stage of the reference is the entrywise specification. -/
theorem refDense1_eq (x : FVec Ideal S50000x512 .f32) (w : FVec Ideal S512x1 .f32) (b : FVec Ideal S1 .f32)
    (h : S1.ShapeCasts S1x1) :
    refDense1 x w b = Cert.Gcn.denseOut x w (shapeCast S1x1 b h) := by
  funext i
  obtain ⟨p, q, rfl⟩ : ∃ (p : Fin 50000) (q : Fin 1), i = ix2 p q := ⟨i 0, i 1, eq_ix2 i⟩
  unfold refDense1 Cert.Gcn.denseOut Cert.Gcn.denseOutAt
  rw [addf_apply, dot1_apply, bias1_apply b h]

end Entries

/-- The reference's result is the composition aggregate, first dense stage, aggregate, second dense stage, mean: the
    same operations on the same operands, the scatter and gather dimension records of the two programs having the same
    fields. -/
theorem struct (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v70 (F := Ideal) m c
      = Cert.Gcn.meanTail (F := Ideal) (refDense1 (Cert.Gcn.agg (F := Ideal) (refDense0 (Cert.Gcn.agg (F := Ideal) (m ((c.tc : Thread _ _).loc Cert.ReferenceIdeal.main_arg0)) (m ((c.tc : Thread _ _).loc Cert.ReferenceIdeal.main_arg1)) (m ((c.tc : Thread _ _).loc Cert.ReferenceIdeal.main_arg2))) (m ((c.tc : Thread _ _).loc Cert.ReferenceIdeal.main_arg3)) (m ((c.tc : Thread _ _).loc Cert.ReferenceIdeal.main_arg4))) (m ((c.tc : Thread _ _).loc Cert.ReferenceIdeal.main_arg1)) (m ((c.tc : Thread _ _).loc Cert.ReferenceIdeal.main_arg2))) (m ((c.tc : Thread _ _).loc Cert.ReferenceIdeal.main_arg5)) (m ((c.tc : Thread _ _).loc Cert.ReferenceIdeal.main_arg6))) := by
  unfold Cert.ReferenceIdeal.Value.res_main_v70 Cert.Gcn.meanTail refDense1 refDense0 Cert.Gcn.agg Cert.Gcn.degNorm Cert.Gcn.wrapIdx
  rfl

/-- The reference's result is the specification's network of its arguments, the two bias vectors as one-row matrices. -/
theorem ref_result (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v70 (F := Ideal) m c
      = Cert.Gcn.result (m ((c.tc : Thread _ _).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg3))
          (shapeCast Cert.KernelIdeal.S1x512 (m ((c.tc : Thread _ _).loc Cert.ReferenceIdeal.main_arg4)) Cert.KernelIdeal.Gen.shapeCasts_S512_S1x512) (m ((c.tc : Thread _ _).loc Cert.ReferenceIdeal.main_arg5))
          (shapeCast Cert.KernelIdeal.S1x1 (m ((c.tc : Thread _ _).loc Cert.ReferenceIdeal.main_arg6)) Cert.KernelIdeal.Gen.shapeCasts_S1_S1x1) := by
  rw [struct, refDense0_eq _ _ _ Cert.KernelIdeal.Gen.shapeCasts_S512_S1x512, refDense1_eq _ _ _ Cert.KernelIdeal.Gen.shapeCasts_S1_S1x1]
  rfl

end Cert.Gcn.RefValue

end
-- ==== Proof.lean ====
/-
  A two-layer graph convolution with a mean readout: the Pallas kernel against its jnp reference, over the extended reals.

  Both programs aggregate the node features over the edge list with degree normalisation on both sides, apply a dense
  layer, take the maximum with zero, aggregate again, apply a second dense layer with one output column, and average that
  column over the nodes. They share every host operation of the aggregations and of the readout. They differ in the dense
  layers: the kernel runs each as a pipelined region over 25 blocks of 2000 rows, each block a matrix product into a zero
  accumulator plus the bias row (the operands rounded to a shorter float format on the way in, which at the ideal values
  is the identity), while the reference takes one matrix product of the whole array and adds the bias. Entry by entry both
  are the sum over the 512 contracted coordinates of the products, plus the bias entry — the same sum in the same order of
  summands, so no law beyond reading each side at an entry is used and the precondition is never opened.

  The kernel's frames are the generated ones. The kernel's run is stated once more with the result buffer's final contents
  named; those contents are read back through the host operations and through the two regions' write-backs to the
  specification of the argument arrays. The reference's run is the generated one, and its result term is shown to be the
  same specification.
-/
import proofs.«111108_j88124138979416_1_alg».proof.Defs
import proofs.«111108_j88124138979416_1_alg».proof.Proof.Gen.Kernel
import proofs.«111108_j88124138979416_1_alg».proof.Proof.Gen.Kernel.Skeleton
import proofs.«111108_j88124138979416_1_alg».proof.Proof.Gen.Kernel.Launch
import proofs.«111108_j88124138979416_1_alg».proof.Proof.Gen.Kernel.Points
import proofs.«111108_j88124138979416_1_alg».proof.Proof.Gen.Kernel.Frame
import proofs.«111108_j88124138979416_1_alg».proof.Proof.Gen.KernelIdeal
import proofs.«111108_j88124138979416_1_alg».proof.Proof.Gen.KernelIdeal.Skeleton
import proofs.«111108_j88124138979416_1_alg».proof.Proof.Gen.KernelIdeal.Launch
import proofs.«111108_j88124138979416_1_alg».proof.Proof.Gen.KernelIdeal.Points
import proofs.«111108_j88124138979416_1_alg».proof.Proof.Gen.KernelIdeal.Frame
import proofs.«111108_j88124138979416_1_alg».proof.Proof.Gen.ReferenceIdeal
import proofs.«111108_j88124138979416_1_alg».proof.Proof.Gen.Pre_finite_inputs
import proofs.«111108_j88124138979416_1_alg».proof.Proof.Gen.ReferenceIdeal.Run
import proofs.«111108_j88124138979416_1_alg».proof.Proof.Gen.ReferenceIdeal.Read
import proofs.«111108_j88124138979416_1_alg».proof.Proof.Spec
import proofs.«111108_j88124138979416_1_alg».proof.Proof.KernelRun
import proofs.«111108_j88124138979416_1_alg».proof.Proof.KernelValue
import proofs.«111108_j88124138979416_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates without a fault and leaves its arguments as launched. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is host operations only: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments both programs end with the result buffer at the specification of
    those arguments: the kernel's by reading its last boundary back, the reference's by its composed term. -/
theorem algebraic : Cert.algebraic_KernelIdeal_ReferenceIdeal := by
  intro m ρ m' ρ' _ hagree
  refine ⟨fun c => Cert.Gcn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (shapeCast Cert.KernelIdeal.S1x512 (m ((c.tc : Thread Cert.KernelIdeal.nD Cert.KernelIdeal.τ).loc Cert.KernelIdeal.main_arg4)) Cert.KernelIdeal.Gen.shapeCasts_S512_S1x512) (m ((c.tc : Thread Cert.KernelIdeal.nD Cert.KernelIdeal.τ).loc Cert.KernelIdeal.main_arg5))
          (shapeCast Cert.KernelIdeal.S1x1 (m ((c.tc : Thread Cert.KernelIdeal.nD Cert.KernelIdeal.τ).loc Cert.KernelIdeal.main_arg6)) Cert.KernelIdeal.Gen.shapeCasts_S1_S1x1), ?_, ?_⟩
  · exact (θ_run Cert.KernelIdeal.defs _ _).mono
      (fun r h c => ⟨(h c).1.trans (Cert.Gcn.KernelValue.kernel_value m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.Gcn.RefValue.ref_result m' c, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
